-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_arg5 : FVec F S1 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294957296#32
  let main_v24 : IVec S2x320000 32 := broadcastInDim S2x320000 ![] bcast_S_S2x320000 main_c_8
  let main_v25 : IVec S2x320000 1 := cmpi .sge main_arg1 main_v24
  let main_c_9 : IVec S_ 32 := constantI S_ 32 10000#32
  let main_v26 : IVec S2x320000 32 := broadcastInDim S2x320000 ![] bcast_S_S2x320000 main_c_9
  let main_v27 : IVec S2x320000 1 := cmpi .slt main_arg1 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x256 .f32) (main_arg1 : IVec S2x320000 32) (main_arg2 : FVec F S256x512 .f32) (main_arg3 : FVec F S256 .f32) (main_arg4 : FVec F S1x256 .f32) (main_arg5 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg4
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg1 main_arg5 main_v13 main_v16
-- ==== Kernel.lean ====
abbrev S10000x256 : Shape := ⟨2, ![10000, 256]⟩
abbrev S2x320000 : Shape := ⟨2, ![2, 320000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S320000x256 : Shape := ⟨2, ![320000, 256]⟩
abbrev S256x256 : Shape := ⟨2, ![256, 256]⟩
abbrev S256x1 : Shape := ⟨2, ![256, 1]⟩
abbrev S6400x256 : Shape := ⟨2, ![6400, 256]⟩
abbrev S6400x1 : Shape := ⟨2, ![6400, 1]⟩

abbrev nBuf : Space → Nat
  | .hbm => 70
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S1, .i32⟩
  | .hbm, ⟨19, _⟩ => ⟨S_, .i32⟩
  | .hbm, ⟨20, _⟩ => ⟨S320000x1, .i32⟩
  | .hbm, ⟨21, _⟩ => ⟨S320000x1, .i1⟩
  | .hbm, ⟨22, _⟩ => ⟨S1x1, .i32⟩
  | .hbm, ⟨23, _⟩ => ⟨S320000x1, .i32⟩
  | .hbm, ⟨24, _⟩ => ⟨S320000x1, .i1⟩
  | .hbm, ⟨25, _⟩ => ⟨S320000x1, .i1⟩
  | .hbm, ⟨26, _⟩ => ⟨S_, .i1⟩
  | .hbm, ⟨27, _⟩ => ⟨S320000, .i1⟩
  | .hbm, ⟨28, _⟩ => ⟨S320000x256, .f32⟩
  | .hbm, ⟨29, _⟩ => ⟨S320000x256, .i1⟩
  | .hbm, ⟨30, _⟩ => ⟨S_, .f32⟩
  | .hbm, ⟨31, _⟩ => ⟨S320000x256, .f32⟩
  | .hbm, ⟨32, _⟩ => ⟨S320000x256, .f32⟩
  | .hbm, ⟨33, _⟩ => ⟨S320000x256, .bf16⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S1, .i32⟩
  | .hbm, ⟨43, _⟩ => ⟨S_, .i32⟩
  | .hbm, ⟨44, _⟩ => ⟨S320000x1, .i32⟩
  | .hbm, ⟨45, _⟩ => ⟨S320000x1, .i1⟩
  | .hbm, ⟨46, _⟩ => ⟨S1x1, .i32⟩
  | .hbm, ⟨47, _⟩ => ⟨S320000x1, .i32⟩
  | .hbm, ⟨48, _⟩ => ⟨S320000x1, .i1⟩
  | .hbm, ⟨49, _⟩ => ⟨S320000x1, .i1⟩
  | .hbm, ⟨50, _⟩ => ⟨S_, .i1⟩
  | .hbm, ⟨51, _⟩ => ⟨S320000, .i1⟩
  | .hbm, ⟨52, _⟩ => ⟨S320000x256, .f32⟩
  | .hbm, ⟨53, _⟩ => ⟨S320000x256, .i1⟩
  | .hbm, ⟨54, _⟩ => ⟨S_, .f32⟩
  | .hbm, ⟨55, _⟩ => ⟨S320000x256, .f32⟩
  | .hbm, ⟨56, _⟩ => ⟨S320000x256, .f32⟩
  | .hbm, ⟨57, _⟩ => ⟨S320000x256, .bf16⟩
  | .hbm, ⟨58, _⟩ => ⟨S256x256, .f32⟩
  | .hbm, ⟨59, _⟩ => ⟨S256x256, .f32⟩
  | .hbm, ⟨60, _⟩ => ⟨S256x256, .bf16⟩
  | .hbm, ⟨61, _⟩ => ⟨S256x256, .f32⟩
  | .hbm, ⟨62, _⟩ => ⟨S256x256, .f32⟩
  | .hbm, ⟨63, _⟩ => ⟨S256x256, .bf16⟩
  | .hbm, ⟨64, _⟩ => ⟨S256x1, .f32⟩
  | .hbm, ⟨65, _⟩ => ⟨S256x1, .bf16⟩
  | .hbm, ⟨66, _⟩ => ⟨S1x256, .f32⟩
  | .hbm, ⟨67, _⟩ => ⟨S1x1, .f32⟩
  | .hbm, ⟨68, _⟩ => ⟨S320000x1, .f32⟩
  | .hbm, ⟨69, _⟩ => ⟨S320000, .f32⟩
  | .local _ .vmem, ⟨0, _⟩ => ⟨S6400x256, .bf16⟩
  | .local _ .vmem, ⟨1, _⟩ => ⟨S6400x256, .bf16⟩
  | .local _ .vmem, ⟨2, _⟩ => ⟨S6400x256, .bf16⟩
  | .local _ .vmem, ⟨3, _⟩ => ⟨S6400x256, .bf16⟩
  | .local _ .vmem, ⟨4, _⟩ => ⟨S256x256, .bf16⟩
  | .local _ .vmem, ⟨5, _⟩ => ⟨S256x256, .bf16⟩
  | .local _ .vmem, ⟨6, _⟩ => ⟨S256x1, .bf16⟩
  | .local _ .vmem, ⟨7, _⟩ => ⟨S1x256, .f32⟩
  | .local _ .vmem, ⟨8, _⟩ => ⟨S1x1, .f32⟩
  | .local _ .vmem, ⟨9, _⟩ => ⟨S6400x1, .f32⟩
  | .local _ .vmem, ⟨10, _⟩ => ⟨S6400x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  bitsLt_bf16_f32 : FTy.bits .bf16 < FTy.bits .f32
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S1x256_S256x1_1_0 : S1x256.Transposes [1, 0] S256x1
  shapeCasts_S256_S1x256 : S256.ShapeCasts S1x256
  shapeCasts_S1_S1x1 : S1.ShapeCasts S1x1
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S320000x1_S320000 : S320000x1.ShapeCasts S320000
  gather_S10000x256_S320000x1_S320000x256_1_0_n_n_0_1_1256_wf : GatherDims.WF S10000x256 S320000x1 S320000x256 [1] [0] [] [0] [] 1 ![1, 256]
  dot_S6400x256_S256x256_S6400x256_1_0_0_1_n_n_wf : DotDims.WF S6400x256 S256x256 S6400x256 [1] [0] [0] [1] [] []
  dot_S6400x256_S256x1_S6400x1_1_0_0_1_n_n_wf : DotDims.WF S6400x256 S256x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S320000x256.size a
  hwx0_0 : ∀ i : grid0.Coords, EltTy.bits .bf16 = 32 ∨ (Rect.block (s := S320000x256) S6400x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x256.size a ≤ S320000x256.size a
  hwx0_1 : ∀ i : grid0.Coords, EltTy.bits .bf16 = 32 ∨ (Rect.block (s := S320000x256) S6400x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .bf16 = 32 ∨ (Rect.block (s := S256x1) S256x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x1.size a ≤ S320000x1.size a
  hwx0_7 : ∀ i : grid0.Coords, EltTy.bits .f32 = 32 ∨ (Rect.block (s := S320000x1) S6400x1.size (cc0_transform_7 i) (hinb0_7 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf
def dot_S6400x256_S256x1_S6400x1_1_0_0_1_n_n : DotDims S6400x256 S256x1 S6400x1 where
  lhsContracting := [1]
  rhsContracting := [0]
  lhsNonContracting := [0]
  rhsNonContracting := [1]
  lhsBatch := []
  rhsBatch := []
  wf := dot_S6400x256_S256x1_S6400x1_1_0_0_1_n_n_wf

abbrev win0_0 : Pipeline.Window sig grid0 :=
  Pipeline.Window.ofSpec (Memref.whole main_v5) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6400x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S6400x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S512x256 : Shape := ⟨2, ![512, 256]⟩
abbrev S256x1 : Shape := ⟨2, ![256, 1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x512, .f32⟩
  | .hbm, ⟨29, _⟩ => ⟨S512x256, .f32⟩
  | .hbm, ⟨30, _⟩ => ⟨S320000x256, .f32⟩
  | .hbm, ⟨31, _⟩ => ⟨S1x256, .f32⟩
  | .hbm, ⟨32, _⟩ => ⟨S320000x256, .f32⟩
  | .hbm, ⟨33, _⟩ => ⟨S320000x256, .f32⟩
  | .hbm, ⟨34, _⟩ => ⟨S_, .f32⟩
  | .hbm, ⟨35, _⟩ => ⟨S320000x256, .f32⟩
  | .hbm, ⟨36, _⟩ => ⟨S320000x256, .f32⟩
  | .hbm, ⟨37, _⟩ => ⟨S256x1, .f32⟩
  | .hbm, ⟨38, _⟩ => ⟨S320000x1, .f32⟩
  | .hbm, ⟨39, _⟩ => ⟨S1x1, .f32⟩
  | .hbm, ⟨40, _⟩ => ⟨S320000x1, .f32⟩
  | .hbm, ⟨41, _⟩ => ⟨S320000x1, .f32⟩
  | .hbm, ⟨42, _⟩ => ⟨S320000, .f32⟩
  | .hbm, ⟨43, _⟩ => ⟨S_, .f32⟩
  | .hbm, ⟨44, _⟩ => ⟨S320000, .f32⟩
  | .hbm, ⟨45, _⟩ => ⟨S320000, .f32⟩
  | .hbm, ⟨46, _⟩ => ⟨S320000, .f32⟩
  | .hbm, ⟨47, _⟩ => ⟨S320000, .f32⟩
  | .hbm, ⟨48, _⟩ => ⟨S_, .f32⟩
  | .hbm, ⟨49, _⟩ => ⟨S320000, .f32⟩
  | .hbm, ⟨50, _⟩ => ⟨S320000, .f32⟩
  | .hbm, ⟨51, _⟩ => ⟨S_, .f32⟩
  | .hbm, ⟨52, _⟩ => ⟨S320000, .f32⟩
  | .hbm, ⟨53, _⟩ => ⟨S320000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  transposes_S256x512_S512x256_1_0 : S256x512.Transposes [1, 0] S512x256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  transposes_S1x256_S256x1_1_0 : S1x256.Transposes [1, 0] S256x1
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  shapeCasts_S320000x1_S320000 : S320000x1.ShapeCasts S320000
  gather_S10000x256_S320000x1_S320000x256_1_0_n_n_0_1_1256_wf : GatherDims.WF S10000x256 S320000x1 S320000x256 [1] [0] [] [0] [] 1 ![1, 256]
  dot_S320000x512_S512x256_S320000x256_1_0_0_1_n_n_wf : DotDims.WF S320000x512 S512x256 S320000x256 [1] [0] [0] [1] [] []
  dot_S320000x256_S256x1_S320000x1_1_0_0_1_n_n_wf : DotDims.WF S320000x256 S256x1 S320000x1 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf

class Facts : Prop extends Facts₀ where

variable [Facts]
-- ==== Proof.Spec.lean ====
/-
  The one function both programs compute, for ONE edge.

  An edge e joins node row[e] to node col[e]. With xr, xc the two nodes' feature rows (256 numbers each),
  the hidden layer is  h_j = max (Σ_k xr_k · A_kj + Σ_k xc_k · B_kj + b1_j) 0  for j < 256, where A and B are
  the two halves of the first weight matrix (A_kj = W1[j, k], B_kj = W1[j, 256 + k]); the logit is
  z = Σ_j h_j · w2_j + b2, and the edge's mask value is the logistic function of z / 1.

  Also here: a sum over 512 terms is the sum of its first 256 terms plus the sum of its last 256 — the
  law by which the reference's single contraction over the concatenated row [xr ; xc] against W1ᵀ is the
  kernel's two contractions. It holds in any additive commutative monoid, so on the extended reals no
  finiteness is needed.
-/
import Idealize.ShloMosaic.PureOps.Ideal
import Idealize.ShloMosaic.Lib.ValueIdx

noncomputable section

open scoped BigOperators

namespace Cert.EdgeMlp

open Idealize.ShloMosaic Idealize.ShloMosaic.ValueIdx

/-- The f32 pattern of one, as both programs print it (never evaluated: the same word on both sides). -/
abbrev one32 : EReal := Ideal.ofBits .f32 0x3F800000#32
/-- The f32 pattern of zero, likewise. -/
abbrev zero32 : EReal := Ideal.ofBits .f32 0x00000000#32

/-- The logistic function of z / 1, written as jax expands it: 1 / (1 + exp (-(z / 1))). -/
def gate (z : EReal) : EReal := Ideal.div one32 (one32 + Ideal.exp (-(Ideal.div z one32)))

/-- One edge's hidden unit j before the rectifier. -/
def hidden (xr xc : Fin 256 → EReal) (A B : Fin 256 → Fin 256 → EReal) (b1 : Fin 256 → EReal) (j : Fin 256) : EReal :=
  (∑ k : Fin 256, xr k * A k j) + (∑ k : Fin 256, xc k * B k j) + b1 j

/-- One edge's logit. -/
def logit (xr xc : Fin 256 → EReal) (A B : Fin 256 → Fin 256 → EReal) (b1 w2 : Fin 256 → EReal) (b2 : EReal) : EReal :=
  (∑ j : Fin 256, max (hidden xr xc A B b1 j) zero32 * w2 j) + b2

/-- One edge's mask value. -/
def edgeScore (xr xc : Fin 256 → EReal) (A B : Fin 256 → Fin 256 → EReal) (b1 w2 : Fin 256 → EReal) (b2 : EReal) : EReal :=
  gate (logit xr xc A B b1 w2 b2)

/-- Column 256 + k of a 512-wide row. -/
abbrev hi (k : Fin 256) : Fin 512 := ⟨256 + k.val, by have := k.isLt; omega⟩
/-- Column k of a 512-wide row. -/
abbrev lo (k : Fin 256) : Fin 512 := ⟨k.val, by have := k.isLt; omega⟩

/-- A sum of 512 terms is the sum of the first 256 plus the sum of the last 256. -/
theorem sum_split {M : Type} [AddCommMonoid M] (f : Fin 512 → M) :
    ∑ k : Fin 512, f k = (∑ k : Fin 256, f (lo k)) + (∑ k : Fin 256, f (hi k)) := by
  have h := Fin.sum_univ_add (a := 256) (b := 256) (fun i : Fin (256 + 256) => f ⟨i.val, i.isLt⟩)
  have e1 : ∑ k : Fin 512, f k = ∑ i : Fin (256 + 256), f ⟨i.val, i.isLt⟩ := rfl
  rw [e1, h]
  congr 1

end Cert.EdgeMlp

end
-- ==== Proof.RefValue.lean ====
/-
  The reference, one edge at a time: entry e of its result is the edge score of the two gathered rows,
  the two halves of W1 read transposed, b1, W2's one row and b2.
-/
import proofs.«400883_j8916352106738_1_alg».proof.Proof.Gen.ReferenceIdeal.Read
import proofs.«400883_j8916352106738_1_alg».proof.Proof.Spec

noncomputable section

open scoped BigOperators

namespace Cert.EdgeMlp.Ref

open Cert.ReferenceIdeal Cert.ReferenceIdeal.Gen Cert.ReferenceIdeal.Read Idealize.ShloMosaic Idealize.ShloMosaic.ValueIdx Cert.EdgeMlp

/-- The concatenated row, read in its first 256 columns, is the first gathered row. -/
private theorem v18_lo (x0 : (⟨S10000x256, .f32⟩ : BufTy).Contents (Elt Ideal)) (x1 : (⟨S2x320000, .i32⟩ : BufTy).Contents (Elt Ideal))
    (e : Fin 320000) (k : Fin 256) :
    val_main_v18 (F := Ideal) x0 x1 (ix2 e (lo k)) = val_main_v10 (F := Ideal) x0 x1 (ix2 e k) := by
  unfold val_main_v18
  exact concatenate_pair_apply_left (1 : Fin S320000x512.rank) _ _ concatenates_S320000x256_S320000x256_S320000x512_d1
    (ix2 e (lo k)) rfl (ix2 e k) (fun b => match b with
      | ⟨0, _⟩ => rfl
      | ⟨1, _⟩ => rfl)

/-- The concatenated row, read in its last 256 columns, is the second gathered row. -/
private theorem v18_hi (x0 : (⟨S10000x256, .f32⟩ : BufTy).Contents (Elt Ideal)) (x1 : (⟨S2x320000, .i32⟩ : BufTy).Contents (Elt Ideal))
    (e : Fin 320000) (k : Fin 256) :
    val_main_v18 (F := Ideal) x0 x1 (ix2 e (hi k)) = val_main_v17 (F := Ideal) x0 x1 (ix2 e k) := by
  unfold val_main_v18
  exact concatenate_pair_apply_right (1 : Fin S320000x512.rank) _ _ concatenates_S320000x256_S320000x256_S320000x512_d1
    (ix2 e (hi k)) rfl rfl (ix2 e k) (fun b hb => match b, hb with
      | ⟨0, _⟩, _ => rfl
      | ⟨1, _⟩, hb => absurd rfl hb)
    (by show k.val + 256 = 256 + k.val; omega)

/-- Hidden unit j of edge e before the rectifier: the contraction over the 512 concatenated columns is the
    contraction of the first gathered row against W1[j, k] plus that of the second against W1[j, 256 + k]. -/
private theorem v23_edge (x0 : (⟨S10000x256, .f32⟩ : BufTy).Contents (Elt Ideal)) (x1 : (⟨S2x320000, .i32⟩ : BufTy).Contents (Elt Ideal))
    (x2 : (⟨S256x512, .f32⟩ : BufTy).Contents (Elt Ideal)) (x3 : (⟨S256, .f32⟩ : BufTy).Contents (Elt Ideal))
    (e : Fin 320000) (j : Fin 256) :
    val_main_v23 (F := Ideal) x0 x1 x2 x3 (ix2 e j)
      = hidden (fun k => val_main_v10 (F := Ideal) x0 x1 (ix2 e k)) (fun k => val_main_v17 (F := Ideal) x0 x1 (ix2 e k))
          (fun k j => x2 (ix2 j (lo k))) (fun k j => x2 (ix2 j (hi k))) (fun j => x3 (ix1 j)) j := by
  have eL : ∀ k : Fin 512, lidx_main_v20 (ix2 e j) k = ix2 e k := fun k => funext fun a => Fin.ext (by
    match a with
    | ⟨0, _⟩ => rfl
    | ⟨1, _⟩ => rfl)
  have eR : ∀ k : Fin 512, idx_main_v19 (ridx_main_v20 (ix2 e j) k) = ix2 j k := fun k => funext fun a => Fin.ext (by
    match a with
    | ⟨0, _⟩ => rfl
    | ⟨1, _⟩ => rfl)
  have eB : idx_main_v21 (idx_main_v22 (ix2 e j)) = ix1 j := funext fun a => Fin.ext (by
    match a with
    | ⟨0, _⟩ => rfl)
  rw [val_main_v23_apply, val_main_v20_apply, val_main_v22_apply, val_main_v21_apply, eB]
  simp only [val_main_v19_apply, eL, eR]
  rw [sum_split]
  simp only [v18_lo, v18_hi]
  rfl

/-- The logit of edge e: the rectified hidden units against W2's one row, plus b2. -/
private theorem v29_edge (x0 : (⟨S10000x256, .f32⟩ : BufTy).Contents (Elt Ideal)) (x1 : (⟨S2x320000, .i32⟩ : BufTy).Contents (Elt Ideal))
    (x2 : (⟨S256x512, .f32⟩ : BufTy).Contents (Elt Ideal)) (x3 : (⟨S256, .f32⟩ : BufTy).Contents (Elt Ideal))
    (x4 : (⟨S1x256, .f32⟩ : BufTy).Contents (Elt Ideal)) (x5 : (⟨S1, .f32⟩ : BufTy).Contents (Elt Ideal)) (e : Fin 320000) :
    val_main_v29 (F := Ideal) x0 x1 x2 x3 x4 x5 (ix2 e (0 : Fin 1))
      = logit (fun k => val_main_v10 (F := Ideal) x0 x1 (ix2 e k)) (fun k => val_main_v17 (F := Ideal) x0 x1 (ix2 e k))
          (fun k j => x2 (ix2 j (lo k))) (fun k j => x2 (ix2 j (hi k))) (fun j => x3 (ix1 j)) (fun j => x4 (ix2 (0 : Fin 1) j)) (x5 (ix1 (0 : Fin 1))) := by
  have eL : ∀ k : Fin 256, lidx_main_v26 (ix2 e (0 : Fin 1)) k = ix2 e k := fun k => funext fun a => Fin.ext (by
    match a with
    | ⟨0, _⟩ => rfl
    | ⟨1, _⟩ => rfl)
  have eR : ∀ k : Fin 256, idx_main_v25 (ridx_main_v26 (ix2 e (0 : Fin 1)) k) = ix2 (0 : Fin 1) k := fun k => funext fun a => Fin.ext (by
    match a with
    | ⟨0, _⟩ => rfl
    | ⟨1, _⟩ => rfl)
  have eB : idx_main_v27 (idx_main_v28 (ix2 e (0 : Fin 1))) = ix1 (0 : Fin 1) := funext fun a => Fin.ext (by
    match a with
    | ⟨0, _⟩ => rfl)
  rw [val_main_v29_apply, val_main_v26_apply, val_main_v28_apply, val_main_v27_apply, eB]
  simp only [val_main_v25_apply, eL, eR, val_main_v24_apply, v23_edge, val_main_call0_v0_apply, val_main_call0_cst_apply]
  rfl

theorem val_v38_edge (x0 : (⟨S10000x256, .f32⟩ : BufTy).Contents (Elt Ideal)) (x1 : (⟨S2x320000, .i32⟩ : BufTy).Contents (Elt Ideal))
    (x2 : (⟨S256x512, .f32⟩ : BufTy).Contents (Elt Ideal)) (x3 : (⟨S256, .f32⟩ : BufTy).Contents (Elt Ideal))
    (x4 : (⟨S1x256, .f32⟩ : BufTy).Contents (Elt Ideal)) (x5 : (⟨S1, .f32⟩ : BufTy).Contents (Elt Ideal)) (e : Fin 320000) :
    val_main_v38 (F := Ideal) x0 x1 x2 x3 x4 x5 (ix1 e)
      = edgeScore (fun k => val_main_v10 (F := Ideal) x0 x1 (ix2 e k)) (fun k => val_main_v17 (F := Ideal) x0 x1 (ix2 e k))
          (fun k j => x2 (ix2 j (lo k))) (fun k j => x2 (ix2 j (hi k))) (fun j => x3 (ix1 j)) (fun j => x4 (ix2 (0 : Fin 1) j)) (x5 (ix1 (0 : Fin 1))) := by
  -- the reshape reads row e, column 0 of the logits
  have e30 : idx_main_v30 (ix1 e) = ix2 e (0 : Fin 1) := funext fun a => Fin.ext (by
    match a with
    | ⟨0, _⟩ => exact Nat.div_one _
    | ⟨1, _⟩ => rfl)
  rw [val_main_v38_apply, val_main_v37_apply, val_main_cst_4_apply, val_main_v36_apply, val_main_v35_apply, val_main_cst_3_apply,
    val_main_v34_apply, val_main_v33_apply, val_main_v32_apply, val_main_v31_apply, val_main_cst_apply, val_main_v30_apply, e30,
    v29_edge]
  rfl

end Cert.EdgeMlp.Ref

end
-- ==== Proof.PreRange.lean ====
/-
  What the precondition says of the edge list: every entry of edge_index, read signed, lies in [-10000, 10000),
  the range of NumPy indices into an axis of 10000 rows. And what that gives the take: an index in that range,
  wrapped (10000 added when negative), lies in [0, 9999], so the take's in-bounds test is 1.
-/
import proofs.«400883_j8916352106738_1_alg».proof.Pre_finite_inputs
import proofs.«400883_j8916352106738_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.EdgeMlp

open Idealize.ShloMosaic Idealize.ShloMosaic.ValueIdx

/-- A node index in the evident domain: NumPy's range for an axis of 10000 rows, negatives included. -/
def InRange (w : BitVec 32) : Prop := -10000 ≤ w.toInt ∧ w.toInt < 10000

/-- jnp's index wrap: 10000 added to a negative index. -/
def wrap (w : BitVec 32) : BitVec 32 := Scalar.select (IntOp.cmpi .slt w 0#32) (IntOp.addi w 10000#32) w

/-- A wrapped in-range index passes the take's in-bounds test 0 ≤ · ≤ 9999. -/
theorem wrap_inb (w : BitVec 32) (h : InRange w) :
    IntOp.andi (IntOp.cmpi .sge (wrap w) 0#32) (IntOp.cmpi .sle (wrap w) 9999#32) = 1#1 := by
  obtain ⟨h1, h2⟩ := h
  have z0 : (0#32 : BitVec 32).toInt = 0 := by decide
  have z1 : (9999#32 : BitVec 32).toInt = 9999 := by decide
  have z2 : (10000#32 : BitVec 32).toInt = 10000 := by decide
  rw [IntOp.andi_eq_one, IntOp.cmpi_sge, IntOp.cmpi_sle, z0, z1]
  by_cases hc : IntOp.cmpi .slt w 0#32 = 1#1
  · -- a negative index: 10000 is added, and the sum of the signed readings does not leave the 32-bit range
    have hneg : w.toInt < 0 := by have := IntOp.cmpi_slt.1 hc; rwa [z0] at this
    have e : wrap w = w + 10000#32 := by unfold wrap; rw [hc]; exact select_one _ _
    have t : (w + 10000#32).toInt = w.toInt + 10000 := by
      rw [BitVec.toInt_add, z2]
      exact Int.bmod_eq_of_le (by omega) (by omega)
    rw [e, t]
    omega
  · -- a nonnegative index is kept
    have hpos : ¬ w.toInt < 0 := fun hh => hc (IntOp.cmpi_slt.2 (by rw [z0]; exact hh))
    have e : wrap w = w := by unfold wrap; rw [eq_zero_of_ne_one hc]; rfl
    rw [e]
    omega

/-- The precondition puts every entry of the edge list in range. -/
theorem inRange_of_pre (x0 : FVec Ideal Cert.Pre_finite_inputs.S10000x256 .f32) (x1 : IVec Cert.Pre_finite_inputs.S2x320000 32)
    (x2 : FVec Ideal Cert.Pre_finite_inputs.S256x512 .f32) (x3 : FVec Ideal Cert.Pre_finite_inputs.S256 .f32)
    (x4 : FVec Ideal Cert.Pre_finite_inputs.S1x256 .f32) (x5 : FVec Ideal Cert.Pre_finite_inputs.S1 .f32)
    (h : Cert.Pre_finite_inputs.fn (F := Ideal) x0 x1 x2 x3 x4 x5 = fun _ => 1#1) (i : Cert.Pre_finite_inputs.S2x320000.Idx) :
    InRange (x1 i) := by
  -- the predicate's one word, with its chain of operations laid open
  have h0 := congrFun h ix0
  dsimp only [Cert.Pre_finite_inputs.fn, Cert.Pre_finite_inputs.fn_part1] at h0
  -- the last conjunct is the conjunction, over every entry of the edge list, of the two range tests
  have h29 := (IntOp.andi_eq_one.1 h0).2
  haveI : Subsingleton Cert.Pre_finite_inputs.S_.Idx := ⟨fun a b => funext fun d => d.elim0⟩
  have hi := Host.reduce_andi_all _ _ _ _ _ h29 i
  -- at entry i: -10000 ≤ x1 i and x1 i < 10000, both read signed; each bound is a scalar constant broadcast
  obtain ⟨hge, hlt⟩ := IntOp.andi_eq_one.1 hi
  have hge' := IntOp.cmpi_sge.1 hge
  have hlt' := IntOp.cmpi_slt.1 hlt
  rw [StableHlo.Predicate.bcast_scalar _ Cert.Pre_finite_inputs.Facts.h_S_] at hge' hlt'
  have c1 : (4294957296#32 : BitVec 32).toInt = -10000 := by decide
  have c2 : (10000#32 : BitVec 32).toInt = 10000 := by decide
  exact ⟨by rw [← c1]; exact hge', by rw [← c2]; exact hlt'⟩

end Cert.EdgeMlp

end
-- ==== Proof.PrefixRows.lean ====
/-
  The two feature arrays the region is entered with. The kernel's host code takes rows of x by jnp.take: the index
  wrapped, the row gathered, and NaN selected wherever the wrapped index is outside [0, 9999]. On the evident
  domain no index is outside, so the array is the gathered rows: the same gather of the same wrapped indices the
  reference makes. (The bf16 conversion is the identity on extended reals.)
-/
import proofs.«400883_j8916352106738_1_alg».proof.Defs
import proofs.«400883_j8916352106738_1_alg».proof.Proof.Gen.KernelIdeal.Frame
import proofs.«400883_j8916352106738_1_alg».proof.Proof.Gen.ReferenceIdeal.Read
import proofs.«400883_j8916352106738_1_alg».proof.Proof.PreRange
import Idealize.ShloMosaic.Lib.StableHlo.Run

noncomputable section

namespace Cert.EdgeMlp.Rows

open Cert.KernelIdeal Cert.KernelIdeal.Gen Idealize.ShloMosaic Idealize.ShloMosaic.TcCoe Idealize.ShloMosaic.ValueIdx Idealize.SL.Sem Cert.EdgeMlp

variable (m : (ℓ : Loc nD τ sig) → Buf (Elt Ideal) ℓ)

/-- jnp.take's index column: the index wrapped (10000 added when negative), as a [320000, 1] column. -/
private def wcol (row : IVec S320000 32) : IVec S320000x1 32 :=
  broadcastInDim S320000x1 ![0] bcast_S320000_S320000x1_0
    (select (cmpi .slt row (broadcastInDim S320000 ![] bcast_S_S320000 (constantI S_ 32 0#32)))
      (addi row (broadcastInDim S320000 ![] bcast_S_S320000 (constantI S_ 32 10000#32))) row)

/-- jnp.take's in-bounds mask: 0 ≤ wrapped index ≤ 9999, reduced by and over the unit axis, broadcast along the row. -/
private def inb (row : IVec S320000 32) : IVec S320000x256 1 :=
  broadcastInDim S320000x256 ![0] bcast_S320000_S320000x256_0
    (Host.reduce IntOp.andi
      (andi (cmpi .sge (wcol row) (broadcastInDim S320000x1 ![] bcast_S_S320000x1 (constantI S_ 32 0#32)))
        (cmpi .sle (wcol row) (broadcastInDim S320000x1 ![0, 1] bcast_S1x1_S320000x1_0_1
          (broadcastInDim S1x1 ![1] bcast_S1_S1x1_1 (constantI S1 32 9999#32)))))
      (constantI S_ 1 1#1) reducesTo_S320000x1_S320000_d1 h_S_)

/-- jnp.take (mode fill): the gathered rows where the index is in bounds, NaN elsewhere. -/
private def took (x : FVec Ideal S10000x256 .f32) (row : IVec S320000 32) : FVec Ideal S320000x256 .f32 :=
  select (inb row)
    (Host.gather gather_S10000x256_S320000x1_S320000x256_1_0_n_n_0_1_1256 x (wcol row))
    (broadcastInDim S320000x256 ![] bcast_S_S320000x256 (constant (F := Ideal) S_ .f32 0x7FC00000#32))

/-- A left fold by and from 1 over words that are all 1 is 1. -/
private theorem foldl_andi_one {ι : Type} (x : ι → BitVec 1) (hx : ∀ i, x i = 1#1) :
    ∀ l : List ι, l.foldl (fun r i => IntOp.andi r (x i)) 1#1 = 1#1
  | [] => rfl
  | a :: l => by
    have h11 : IntOp.andi 1#1 1#1 = 1#1 := by decide
    rw [List.foldl_cons, hx a, h11]
    exact foldl_andi_one x hx l

/-- A reduce by and, from an initial value of ones, of an array of ones is 1 at every result index. -/
private theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-- Every entry of the wrapped index column is the wrap of an entry of the index vector. -/
private theorem wcol_apply (row : IVec S320000 32) (i : S320000x1.Idx) : ∃ e, wcol row i = wrap (row e) :=
  ⟨_, rfl⟩

/-- With every index in range the in-bounds mask is 1 everywhere. -/
private theorem inb_one (row : IVec S320000 32) (hrow : ∀ e, InRange (row e)) (i : S320000x256.Idx) : inb row i = 1#1 := by
  unfold inb
  refine (broadcastInDim_apply _ bcast_S320000_S320000x256_0 _ i (fun a => match a with | ⟨0, _⟩ => ⟨(i 0).val, (i 0).isLt⟩) (fun a => match a with
    | ⟨0, _⟩ => by show (i 0).val = if (320000 : Nat) = 1 then 0 else (i 0).val; rw [if_neg (by decide)])).trans ?_
  refine reduce_andi_one _ _ _ _ (fun _ => rfl) (fun k => ?_) _
  obtain ⟨e, he⟩ := wcol_apply row k
  show IntOp.andi (IntOp.cmpi .sge (wcol row k) 0#32) (IntOp.cmpi .sle (wcol row k) 9999#32) = 1#1
  rw [he]
  exact wrap_inb _ (hrow e)

/-- With every index in range jnp.take is the gather of the rows at the wrapped indices. -/
private theorem took_eq (x : FVec Ideal S10000x256 .f32) (row : IVec S320000 32) (hrow : ∀ e, InRange (row e)) :
    took x row = Host.gather gather_S10000x256_S320000x1_S320000x256_1_0_n_n_0_1_1256 x (wcol row) := by
  funext i
  unfold took
  rw [select_apply, inb_one row hrow i, select_one]

/-- The two programs' gather records are one record. -/
private theorem gather_eq :
    (gather_S10000x256_S320000x1_S320000x256_1_0_n_n_0_1_1256 : GatherDims S10000x256 S320000x1 S320000x256)
      = Cert.ReferenceIdeal.gather_S10000x256_S320000x1_S320000x256_1_0_n_n_0_1_1256 := rfl

/-- The wrapped index column of edge_index[0] is the reference's. -/
private theorem wcol_row0 (x1 : IVec S2x320000 32) :
    wcol (shapeCast S320000 (extractStridedSlice S1x320000 ![0, 0] x1 slices_S2x320000_S1x320000_0_0) shapeCasts_S1x320000_S320000)
      = Cert.ReferenceIdeal.Read.val_main_v9 (F := Ideal) x1 := rfl

/-- The wrapped index column of edge_index[1] is the reference's. -/
private theorem wcol_row1 (x1 : IVec S2x320000 32) :
    wcol (shapeCast S320000 (extractStridedSlice S1x320000 ![1, 0] x1 slices_S2x320000_S1x320000_1_0) shapeCasts_S1x320000_S320000)
      = Cert.ReferenceIdeal.Read.val_main_v16 (F := Ideal) x1 := rfl

/-- Every entry of a row of the edge list (a slice of it, reshaped to a vector) is an entry of the edge list. -/
private theorem row_entry (off : Fin 2 → Nat) (hs : S2x320000.Slices off S1x320000) (x1 : IVec S2x320000 32) (e : S320000.Idx) :
    ∃ k, shapeCast S320000 (extractStridedSlice S1x320000 off x1 hs) shapeCasts_S1x320000_S320000 e = x1 k := ⟨_, rfl⟩

/-- The narrowing to bf16 is the identity on extended reals. -/
private theorem truncf_id (a : FVec Ideal S320000x256 .f32) (h : FTy.bf16.bits < FTy.f32.bits) :
    (truncf .bf16 a h : FVec Ideal S320000x256 .bf16) = a := rfl

/-- The array main_v5 as the host operations before the region leave it: jnp.take of x at edge_index[0], narrowed. -/
private theorem read_v5 (c : Dev nD) : (V m c main_v5 : S320000x256.Idx → EReal)
    = truncf .bf16 (took (m ((c.tc : Thread nD τ).loc main_arg0)) (shapeCast S320000 (extractStridedSlice S1x320000 ![0, 0] (m ((c.tc : Thread nD τ).loc main_arg1)) slices_S2x320000_S1x320000_0_0) shapeCasts_S1x320000_S320000)) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  chain_rfl

/-- The array main_v7 likewise: jnp.take of x at edge_index[1], narrowed. -/
private theorem read_v7 (c : Dev nD) : (V m c main_v7 : S320000x256.Idx → EReal)
    = truncf .bf16 (took (m ((c.tc : Thread nD τ).loc main_arg0)) (shapeCast S320000 (extractStridedSlice S1x320000 ![1, 0] (m ((c.tc : Thread nD τ).loc main_arg1)) slices_S2x320000_S1x320000_1_0) shapeCasts_S1x320000_S320000)) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  chain_rfl

/-- The first gathered array (rows of x at edge_index[0]) as the region finds it: the reference's gathered rows. -/
theorem V_v5 (hpre : Cert.Pre_KernelIdeal m) (c : Dev nD) :
    (V m c main_v5 : S320000x256.Idx → EReal)
      = Cert.ReferenceIdeal.Read.val_main_v10 (F := Ideal) (m ((c.tc : Thread nD τ).loc main_arg0)) (m ((c.tc : Thread nD τ).loc main_arg1)) := by
  have hrow : ∀ e, InRange ((shapeCast S320000 (extractStridedSlice S1x320000 ![0, 0] (m ((c.tc : Thread nD τ).loc main_arg1)) slices_S2x320000_S1x320000_0_0) shapeCasts_S1x320000_S320000) e) := fun e => by
    obtain ⟨k, hk⟩ := row_entry ![0, 0] slices_S2x320000_S1x320000_0_0 (m ((c.tc : Thread nD τ).loc main_arg1)) e
    rw [hk]
    exact inRange_of_pre _ _ _ _ _ _ (hpre c) k
  refine (read_v5 m c).trans ?_
  rw [took_eq _ _ hrow, truncf_id, wcol_row0, gather_eq]
  rfl

/-- The second (rows of x at edge_index[1]). -/
theorem V_v7 (hpre : Cert.Pre_KernelIdeal m) (c : Dev nD) :
    (V m c main_v7 : S320000x256.Idx → EReal)
      = Cert.ReferenceIdeal.Read.val_main_v17 (F := Ideal) (m ((c.tc : Thread nD τ).loc main_arg0)) (m ((c.tc : Thread nD τ).loc main_arg1)) := by
  have hrow : ∀ e, InRange ((shapeCast S320000 (extractStridedSlice S1x320000 ![1, 0] (m ((c.tc : Thread nD τ).loc main_arg1)) slices_S2x320000_S1x320000_1_0) shapeCasts_S1x320000_S320000) e) := fun e => by
    obtain ⟨k, hk⟩ := row_entry ![1, 0] slices_S2x320000_S1x320000_1_0 (m ((c.tc : Thread nD τ).loc main_arg1)) e
    rw [hk]
    exact inRange_of_pre _ _ _ _ _ _ (hpre c) k
  refine (read_v7 m c).trans ?_
  rw [took_eq _ _ hrow, truncf_id, wcol_row1, gather_eq]
  rfl

end Cert.EdgeMlp.Rows

end
-- ==== Proof.PrefixWeights.lean ====
/-
  The five parameter arrays the region is entered with, read at an index: the two halves of W1 transposed
  (entry (k, j) is W1[j, k], respectively W1[j, 256 + k]), W2's row as a column, b1 as a row, b2 as a 1 x 1 array.
  (The bf16 conversions are the identity on extended reals.)
-/
import proofs.«400883_j8916352106738_1_alg».proof.Proof.Gen.KernelIdeal.Frame
import proofs.«400883_j8916352106738_1_alg».proof.Proof.Spec
import Idealize.ShloMosaic.Lib.StableHlo.Run
import Idealize.ShloMosaic.Lib.Pipeline.Value
import Idealize.ShloMosaic.Lib.ValueLayout

noncomputable section

namespace Cert.EdgeMlp.Weights

open Cert.KernelIdeal Cert.KernelIdeal.Gen Idealize.ShloMosaic Idealize.ShloMosaic.TcCoe Idealize.ShloMosaic.ValueIdx Idealize.SL.Sem Cert.EdgeMlp

variable (m : (ℓ : Loc nD τ sig) → Buf (Elt Ideal) ℓ)

/-- What the region finds in the first prepared buffer: the left half of W1 (columns 0 to 255), transposed. -/
private theorem buf_v10 (c : Dev nD) :
    (V m c main_v10 : S256x256.Idx → EReal) =
      (truncf (F := Ideal) .bf16 (transpose S256x256 [1, 0] (extractStridedSlice S256x256 ![0, 0] (m ((c.tc : Thread nD τ).loc main_arg2) : FVec Ideal S256x512 .f32) slices_S256x512_S256x256_0_0) transposes_S256x256_S256x256_1_0) bitsLt_bf16_f32 : S256x256.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- The second: the right half of W1 (columns 256 to 511), transposed. -/
private theorem buf_v13 (c : Dev nD) :
    (V m c main_v13 : S256x256.Idx → EReal) =
      (truncf (F := Ideal) .bf16 (transpose S256x256 [1, 0] (extractStridedSlice S256x256 ![0, 256] (m ((c.tc : Thread nD τ).loc main_arg2) : FVec Ideal S256x512 .f32) slices_S256x512_S256x256_0_256) transposes_S256x256_S256x256_1_0) bitsLt_bf16_f32 : S256x256.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- The third: W2's single row, transposed into a column. -/
private theorem buf_v15 (c : Dev nD) :
    (V m c main_v15 : S256x1.Idx → EReal) =
      (truncf (F := Ideal) .bf16 (transpose S256x1 [1, 0] (m ((c.tc : Thread nD τ).loc main_arg4) : FVec Ideal S1x256 .f32) transposes_S1x256_S256x1_1_0) bitsLt_bf16_f32 : S256x1.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- The fourth: b1 with a leading unit axis. -/
private theorem buf_v16 (c : Dev nD) :
    (V m c main_v16 : S1x256.Idx → EReal) =
      shapeCast S1x256 (m ((c.tc : Thread nD τ).loc main_arg3) : S256.Idx → EReal) shapeCasts_S256_S1x256 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The fifth: b2 with a leading unit axis. -/
private theorem buf_v17 (c : Dev nD) :
    (V m c main_v17 : S1x1.Idx → EReal) =
      shapeCast S1x1 (m ((c.tc : Thread nD τ).loc main_arg5) : S1.Idx → EReal) shapeCasts_S1_S1x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem V_v10 (c : Dev nD) (k j : Fin 256) :
    (V m c main_v10 : S256x256.Idx → EReal) (ix2 k j) = (m ((c.tc : Thread nD τ).loc main_arg2) : S256x512.Idx → EReal) (ix2 j (lo k)) := by
  rw [buf_v10 m c, truncf_apply]
  -- entry (k, j) of the transpose is entry (j, k) of the slice, which is column 0 + k of row j
  refine (transpose_ix2_apply _ transposes_S256x256_S256x256_1_0 k j).trans ?_
  exact slice2_axis1_apply 0 _ slices_S256x512_S256x256_0_0 j k (lo k) (Nat.zero_add _).symm

theorem V_v13 (c : Dev nD) (k j : Fin 256) :
    (V m c main_v13 : S256x256.Idx → EReal) (ix2 k j) = (m ((c.tc : Thread nD τ).loc main_arg2) : S256x512.Idx → EReal) (ix2 j (hi k)) := by
  rw [buf_v13 m c, truncf_apply]
  -- entry (k, j) of the transpose is entry (j, k) of the slice, which is column 256 + k of row j
  refine (transpose_ix2_apply _ transposes_S256x256_S256x256_1_0 k j).trans ?_
  exact slice2_axis1_apply 256 _ slices_S256x512_S256x256_0_256 j k (hi k) rfl

theorem V_v15 (c : Dev nD) (j : Fin 256) :
    (V m c main_v15 : S256x1.Idx → EReal) (ix2 j (0 : Fin 1)) = (m ((c.tc : Thread nD τ).loc main_arg4) : S1x256.Idx → EReal) (ix2 (0 : Fin 1) j) := by
  rw [buf_v15 m c, truncf_apply]
  -- entry (j, 0) of the transpose is entry (0, j) of W2's row
  exact transpose_ix2_apply _ transposes_S1x256_S256x1_1_0 j (0 : Fin 1)

theorem V_v16 (c : Dev nD) (j : Fin 256) :
    (V m c main_v16 : S1x256.Idx → EReal) (ix2 (0 : Fin 1) j) = (m ((c.tc : Thread nD τ).loc main_arg3) : S256.Idx → EReal) (ix1 j) := by
  rw [buf_v16 m c]
  -- a leading unit axis does not move an entry
  exact shapeCast_a_1a_apply _ shapeCasts_S256_S1x256 (0 : Fin 1) j

theorem V_v17 (c : Dev nD) :
    (V m c main_v17 : S1x1.Idx → EReal) (ix2 (0 : Fin 1) (0 : Fin 1)) = (m ((c.tc : Thread nD τ).loc main_arg5) : S1.Idx → EReal) (ix1 (0 : Fin 1)) := by
  rw [buf_v17 m c]
  -- a leading unit axis does not move an entry
  exact shapeCast_a_1a_apply _ shapeCasts_S1_S1x1 (0 : Fin 1) (0 : Fin 1)

end Cert.EdgeMlp.Weights

end
-- ==== Proof.Payload.lean ====
/-
  The kernel body's one stored value, one row of the block at a time: row p of the 6400 x 1 result block is the
  edge score of row p of the two feature blocks, the two weight blocks, the bias row, the W2 column and b2.
-/
import proofs.«400883_j8916352106738_1_alg».proof.Proof.Gen.KernelIdeal.Skeleton
import proofs.«400883_j8916352106738_1_alg».proof.Proof.Spec
import Idealize.ShloMosaic.PureOps.Ideal.Laws
import Idealize.ShloMosaic.Lib.Pipeline.Value
import Idealize.ShloMosaic.Lib.ValueLayout
import Idealize.ShloMosaic.Lib.IdealHost

noncomputable section

open scoped BigOperators

namespace Cert.EdgeMlp.Kern

open Cert.KernelIdeal Cert.KernelIdeal.Gen Idealize.ShloMosaic Idealize.ShloMosaic.ValueIdx Cert.EdgeMlp

/-! ## The two contractions' operand indices, axis by axis

A product of a 6400 x 256 block with a 256 x n block contracts the left operand's axis 1 against the right
operand's axis 0: at output index i and contraction index q the left operand is read at (i 0, q) and the right at
(q, i 1). -/

theorem lhs_wide_0 (i : S6400x256.Idx) (q : dot_S6400x256_S256x256_S6400x256_1_0_0_1_n_n.contr.Idx) :
    (dot_S6400x256_S256x256_S6400x256_1_0_0_1_n_n.lhsIdx i q 0).val = (i 0).val := by
  unfold DotDims.lhsIdx
  rw [dif_neg (show ¬(0 : Fin S6400x256.rank) ∈ dot_S6400x256_S256x256_S6400x256_1_0_0_1_n_n.lhsBatch by decide), dif_pos (show (0 : Fin S6400x256.rank) ∈ dot_S6400x256_S256x256_S6400x256_1_0_0_1_n_n.lhsNonContracting by decide)]
  rfl
theorem lhs_wide_1 (i : S6400x256.Idx) (q : dot_S6400x256_S256x256_S6400x256_1_0_0_1_n_n.contr.Idx) :
    (dot_S6400x256_S256x256_S6400x256_1_0_0_1_n_n.lhsIdx i q 1).val = (q ⟨0, by decide⟩).val :=
  dot_S6400x256_S256x256_S6400x256_1_0_0_1_n_n.lhsIdx_val_of_single rfl i q
theorem rhs_wide_0 (i : S6400x256.Idx) (q : dot_S6400x256_S256x256_S6400x256_1_0_0_1_n_n.contr.Idx) :
    (dot_S6400x256_S256x256_S6400x256_1_0_0_1_n_n.rhsIdx i q 0).val = (q ⟨0, by decide⟩).val :=
  dot_S6400x256_S256x256_S6400x256_1_0_0_1_n_n.rhsIdx_val_of_single rfl i q
theorem rhs_wide_1 (i : S6400x256.Idx) (q : dot_S6400x256_S256x256_S6400x256_1_0_0_1_n_n.contr.Idx) :
    (dot_S6400x256_S256x256_S6400x256_1_0_0_1_n_n.rhsIdx i q 1).val = (i 1).val := by
  unfold DotDims.rhsIdx
  rw [dif_neg (show ¬(1 : Fin S256x256.rank) ∈ dot_S6400x256_S256x256_S6400x256_1_0_0_1_n_n.rhsBatch by decide), dif_pos (show (1 : Fin S256x256.rank) ∈ dot_S6400x256_S256x256_S6400x256_1_0_0_1_n_n.rhsNonContracting by decide)]
  rfl

theorem lhs_col_0 (i : S6400x1.Idx) (q : dot_S6400x256_S256x1_S6400x1_1_0_0_1_n_n.contr.Idx) :
    (dot_S6400x256_S256x1_S6400x1_1_0_0_1_n_n.lhsIdx i q 0).val = (i 0).val := by
  unfold DotDims.lhsIdx
  rw [dif_neg (show ¬(0 : Fin S6400x256.rank) ∈ dot_S6400x256_S256x1_S6400x1_1_0_0_1_n_n.lhsBatch by decide), dif_pos (show (0 : Fin S6400x256.rank) ∈ dot_S6400x256_S256x1_S6400x1_1_0_0_1_n_n.lhsNonContracting by decide)]
  rfl
theorem lhs_col_1 (i : S6400x1.Idx) (q : dot_S6400x256_S256x1_S6400x1_1_0_0_1_n_n.contr.Idx) :
    (dot_S6400x256_S256x1_S6400x1_1_0_0_1_n_n.lhsIdx i q 1).val = (q ⟨0, by decide⟩).val :=
  dot_S6400x256_S256x1_S6400x1_1_0_0_1_n_n.lhsIdx_val_of_single rfl i q
theorem rhs_col_0 (i : S6400x1.Idx) (q : dot_S6400x256_S256x1_S6400x1_1_0_0_1_n_n.contr.Idx) :
    (dot_S6400x256_S256x1_S6400x1_1_0_0_1_n_n.rhsIdx i q 0).val = (q ⟨0, by decide⟩).val :=
  dot_S6400x256_S256x1_S6400x1_1_0_0_1_n_n.rhsIdx_val_of_single rfl i q
theorem rhs_col_1 (i : S6400x1.Idx) (q : dot_S6400x256_S256x1_S6400x1_1_0_0_1_n_n.contr.Idx) :
    (dot_S6400x256_S256x1_S6400x1_1_0_0_1_n_n.rhsIdx i q 1).val = (i 1).val := by
  unfold DotDims.rhsIdx
  rw [dif_neg (show ¬(1 : Fin S256x1.rank) ∈ dot_S6400x256_S256x1_S6400x1_1_0_0_1_n_n.rhsBatch by decide), dif_pos (show (1 : Fin S256x1.rank) ∈ dot_S6400x256_S256x1_S6400x1_1_0_0_1_n_n.rhsNonContracting by decide)]
  rfl

/-! ## Each product into the zero accumulator, read at (p, j): the sum over k of l (p, k) * r (k, j) -/

/-- The 6400 x 256 by 256 x 256 product at (p, j). -/
theorem mm_wide_apply (l : FVec Ideal S6400x256 .bf16) (r : FVec Ideal S256x256 .bf16) (p : Fin 6400) (j : Fin 256) :
    matmul dot_S6400x256_S256x256_S6400x256_1_0_0_1_n_n none l r (constant (F := Ideal) S6400x256 .f32 0x00000000#32) (ix2 p j)
      = ∑ k : Fin 256, l (ix2 p k) * r (ix2 k j) := by
  simp only [matmul]
  rw [Ideal.matmul_constant_zero_apply, ← Equiv.sum_comp (ValueIdx.contrEquiv1 dot_S6400x256_S256x256_S6400x256_1_0_0_1_n_n 256 rfl rfl).symm]
  refine Finset.sum_congr rfl fun k _ => ?_
  have hk := ValueIdx.contrEquiv1_symm_val dot_S6400x256_S256x256_S6400x256_1_0_0_1_n_n 256 rfl rfl k
  have el : dot_S6400x256_S256x256_S6400x256_1_0_0_1_n_n.lhsIdx (ix2 p j) ((ValueIdx.contrEquiv1 dot_S6400x256_S256x256_S6400x256_1_0_0_1_n_n 256 rfl rfl).symm k) = ix2 p k := funext fun a => Fin.ext (by
    match a with
    | ⟨0, _⟩ => exact lhs_wide_0 _ _
    | ⟨1, _⟩ => exact (lhs_wide_1 _ _).trans hk)
  have er : dot_S6400x256_S256x256_S6400x256_1_0_0_1_n_n.rhsIdx (ix2 p j) ((ValueIdx.contrEquiv1 dot_S6400x256_S256x256_S6400x256_1_0_0_1_n_n 256 rfl rfl).symm k) = ix2 k j := funext fun a => Fin.ext (by
    match a with
    | ⟨0, _⟩ => exact (rhs_wide_0 _ _).trans hk
    | ⟨1, _⟩ => exact rhs_wide_1 _ _)
  rw [el, er]

/-- The 6400 x 256 by 256 x 1 product at (p, 0). -/
theorem mm_col_apply (l : FVec Ideal S6400x256 .bf16) (r : FVec Ideal S256x1 .bf16) (p : Fin 6400) (c : Fin 1) :
    matmul dot_S6400x256_S256x1_S6400x1_1_0_0_1_n_n none l r (constant (F := Ideal) S6400x1 .f32 0x00000000#32) (ix2 p c)
      = ∑ k : Fin 256, l (ix2 p k) * r (ix2 k c) := by
  simp only [matmul]
  rw [Ideal.matmul_constant_zero_apply, ← Equiv.sum_comp (ValueIdx.contrEquiv1 dot_S6400x256_S256x1_S6400x1_1_0_0_1_n_n 256 rfl rfl).symm]
  refine Finset.sum_congr rfl fun k _ => ?_
  have hk := ValueIdx.contrEquiv1_symm_val dot_S6400x256_S256x1_S6400x1_1_0_0_1_n_n 256 rfl rfl k
  have el : dot_S6400x256_S256x1_S6400x1_1_0_0_1_n_n.lhsIdx (ix2 p c) ((ValueIdx.contrEquiv1 dot_S6400x256_S256x1_S6400x1_1_0_0_1_n_n 256 rfl rfl).symm k) = ix2 p k := funext fun a => Fin.ext (by
    match a with
    | ⟨0, _⟩ => exact lhs_col_0 _ _
    | ⟨1, _⟩ => exact (lhs_col_1 _ _).trans hk)
  have er : dot_S6400x256_S256x1_S6400x1_1_0_0_1_n_n.rhsIdx (ix2 p c) ((ValueIdx.contrEquiv1 dot_S6400x256_S256x1_S6400x1_1_0_0_1_n_n 256 rfl rfl).symm k) = ix2 k c := funext fun a => Fin.ext (by
    match a with
    | ⟨0, _⟩ => exact (rhs_col_0 _ _).trans hk
    | ⟨1, _⟩ => exact rhs_col_1 _ _)
  rw [el, er]

/-! ## The hidden layer before the rectifier, at (p, j) -/

/-- The two products' sum plus the broadcast bias row, read at (p, j), is row p's hidden unit j. -/
theorem hidden_apply (x0 x1 : FVec Ideal S6400x256 .bf16) (x2 x3 : FVec Ideal S256x256 .bf16) (x5 : FVec Ideal S1x256 .f32)
    (p : Fin 6400) (j : Fin 256) :
    (addf (addf (matmul dot_S6400x256_S256x256_S6400x256_1_0_0_1_n_n none x0 x2 (constant (F := Ideal) S6400x256 .f32 0x00000000#32))
                (matmul dot_S6400x256_S256x256_S6400x256_1_0_0_1_n_n none x1 x3 (constant (F := Ideal) S6400x256 .f32 0x00000000#32)))
          (broadcastTo S6400x256 x5 broadcasts_S1x256_S6400x256)) (ix2 p j)
      = hidden (fun k => x0 (ix2 p k)) (fun k => x1 (ix2 p k)) (fun k j => x2 (ix2 k j)) (fun k j => x3 (ix2 k j))
          (fun j => x5 (ix2 (0 : Fin 1) j)) j := by
  unfold hidden
  rw [addf_apply, addf_apply, mm_wide_apply, mm_wide_apply, broadcastTo_1b_ab_apply]

/-! ## The logistic function as the kernel computes it and as the specification spells it -/

/-- The kernel's logistic function is written with the real number one, the specification's with the f32 word of
    one; the word denotes one. -/
theorem gate_eq (z : EReal) :
    Ideal.div 1 (1 + Ideal.exp (-(Ideal.div z (Ideal.ofBits .f32 0x3F800000#32)))) = gate z := by
  show _ = Ideal.div (Ideal.ofBits .f32 0x3F800000#32)
      (Ideal.ofBits .f32 0x3F800000#32 + Ideal.exp (-(Ideal.div z (Ideal.ofBits .f32 0x3F800000#32))))
  rw [Ideal.ofBits_one_f32]

theorem pay_edge (x0 x1 : FVec Ideal S6400x256 .bf16) (x2 x3 : FVec Ideal S256x256 .bf16) (x5 : FVec Ideal S1x256 .f32)
    (x4 : FVec Ideal S256x1 .bf16) (x6 : FVec Ideal S1x1 .f32) (p : Fin 6400) :
    k0_pay1 (F := Ideal) x0 x1 x2 x3 x5 x4 x6 (ix2 p (0 : Fin 1))
      = edgeScore (fun k => x0 (ix2 p k)) (fun k => x1 (ix2 p k)) (fun k j => x2 (ix2 k j)) (fun k j => x3 (ix2 k j))
          (fun j => x5 (ix2 (0 : Fin 1) j)) (fun j => x4 (ix2 j (0 : Fin 1))) (x6 (ix2 (0 : Fin 1) (0 : Fin 1))) := by
  unfold k0_pay1
  -- the shape casts to the same shape are the identity
  simp only [shapeCast_self]
  -- the logistic function, the division by one, the last bias and the last product, read at (p, 0)
  have hlog : ∀ (v : FVec Ideal S6400x1 .f32) (i : S6400x1.Idx),
      logistic v i = Ideal.div 1 (1 + Ideal.exp (-(v i))) := fun _ _ => rfl
  rw [hlog, divf_apply, addf_apply, broadcast_apply, mm_col_apply, broadcastTo_1b_ab_apply]
  unfold edgeScore
  refine Eq.trans ?_ (gate_eq _)
  unfold logit
  refine congrArg (fun z => Ideal.div 1 (1 + Ideal.exp (-(Ideal.div (z + x6 (ix2 (0 : Fin 1) (0 : Fin 1)))
    (Ideal.ofBits .f32 0x3F800000#32))))) ?_
  -- term by term: the rectified hidden unit j times the W2 column's entry j
  refine Finset.sum_congr rfl fun j _ => ?_
  rw [truncf_apply, maximumf_apply, broadcast_apply, hidden_apply]
  rfl

end Cert.EdgeMlp.Kern

end
-- ==== Proof.Blocks.lean ====
/-
  The kernel's result array. The grid has 50 points; point t is handed rows 6400 t … 6400 t + 6399 of the two
  gathered feature arrays and the five parameter arrays whole, and writes rows 6400 t … 6400 t + 6399 of the
  [320000, 1] result. So the result array ends with entry (e, 0) = the edge score of row e of the two feature
  arrays: each point's block is a restriction of that one function, and the 50 blocks tile the array.
  After the region the program reshapes [320000, 1] to [320000].
-/
import proofs.«400883_j8916352106738_1_alg».proof.Proof.Gen.KernelIdeal.Frame
import proofs.«400883_j8916352106738_1_alg».proof.Proof.Payload
import proofs.«400883_j8916352106738_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.EdgeMlp.Blocks

open Cert.KernelIdeal Cert.KernelIdeal.Gen Idealize.ShloMosaic.ValueIdx Cert.EdgeMlp

variable (m : (ℓ : Loc nD τ sig) → Buf (Elt Ideal) ℓ) (ρ : Dev nD → PrngReg)

/-- The seven arrays the region is entered with, at their literal types. -/
abbrev xr (c : Dev nD) : S320000x256.Idx → EReal := V m c main_v5
abbrev xc (c : Dev nD) : S320000x256.Idx → EReal := V m c main_v7
abbrev wa (c : Dev nD) : S256x256.Idx → EReal := V m c main_v10
abbrev wb (c : Dev nD) : S256x256.Idx → EReal := V m c main_v13
abbrev w2 (c : Dev nD) : S256x1.Idx → EReal := V m c main_v15
abbrev b1 (c : Dev nD) : S1x256.Idx → EReal := V m c main_v16
abbrev b2 (c : Dev nD) : S1x1.Idx → EReal := V m c main_v17

/-- Edge e's score from the arrays the region is entered with. -/
def score (c : Dev nD) (e : Fin 320000) : EReal :=
  edgeScore (fun k => xr m c (ix2 e k)) (fun k => xc m c (ix2 e k)) (fun k j => wa m c (ix2 k j)) (fun k j => wb m c (ix2 k j))
    (fun j => b1 m c (ix2 (0 : Fin 1) j)) (fun j => w2 m c (ix2 j (0 : Fin 1))) (b2 m c (ix2 (0 : Fin 1) (0 : Fin 1)))

/-- The [320000, 1] result array: entry (e, 0) is edge e's score. -/
def scores (c : Dev nD) : S320000x1.Idx → EReal := fun i => score m c ⟨(i 0).val, idx2_lt0 i⟩

theorem hz : (![0, 0] : Fin 2 → Nat) = fun _ => 0 := funext fun a => by fin_cases a <;> rfl

/-- The printed index maps over the grid: the two feature windows and the result window move with the point along
    the rows; the five parameter windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of point t's block of the first feature array is row 6400 t + p of the array. -/
theorem blk_xr (c : Dev nD) (t : Fin cfg0.N) (p : Fin 6400) (k : Fin 256) (e : Fin 320000) (he : e.val = 6400 * t.val + p.val) :
    (iblk m c 0 t : Vec Ideal S6400x256 .bf16) (ix2 p k) = xr m c (ix2 e k) := by
  unfold iblk
  rw [View.read_apply]
  show V m c main_v5 _ = V m c main_v5 _
  congr 1
  funext a
  apply Fin.ext
  match a with
  | ⟨0, _⟩ => show win0_0.index t 0 * 6400 + 1 * p.val = e.val; rw [(idx_facts t).1, he]; omega
  | ⟨1, _⟩ => show win0_0.index t 1 * 256 + 1 * k.val = k.val; rw [(idx_facts t).2.1]; omega

/-- The same for the second feature array. -/
theorem blk_xc (c : Dev nD) (t : Fin cfg0.N) (p : Fin 6400) (k : Fin 256) (e : Fin 320000) (he : e.val = 6400 * t.val + p.val) :
    (iblk m c 1 t : Vec Ideal S6400x256 .bf16) (ix2 p k) = xc m c (ix2 e k) := by
  unfold iblk
  rw [View.read_apply]
  show V m c main_v7 _ = V m c main_v7 _
  congr 1
  funext a
  apply Fin.ext
  match a with
  | ⟨0, _⟩ => show win0_1.index t 0 * 6400 + 1 * p.val = e.val; rw [(idx_facts t).2.2.1, he]; omega
  | ⟨1, _⟩ => show win0_1.index t 1 * 256 + 1 * k.val = k.val; rw [(idx_facts t).2.2.2.1]; omega

/-- Each parameter window's one block is its whole array. -/
theorem blk_wa (c : Dev nD) (t : Fin cfg0.N) (k j : Fin 256) :
    (iblk m c 2 t : Vec Ideal S256x256 .bf16) (ix2 k j) = wa m c (ix2 k j) := by
  unfold iblk
  rw [View.read_apply]
  show V m c main_v10 _ = V m c main_v10 _
  congr 1
  funext a
  apply Fin.ext
  match a with
  | ⟨0, _⟩ => show win0_2.index t 0 * 256 + 1 * k.val = k.val; rw [(idx_facts t).2.2.2.2.1]; omega
  | ⟨1, _⟩ => show win0_2.index t 1 * 256 + 1 * j.val = j.val; rw [(idx_facts t).2.2.2.2.2.1]; omega

theorem blk_wb (c : Dev nD) (t : Fin cfg0.N) (k j : Fin 256) :
    (iblk m c 3 t : Vec Ideal S256x256 .bf16) (ix2 k j) = wb m c (ix2 k j) := by
  unfold iblk
  rw [View.read_apply]
  show V m c main_v13 _ = V m c main_v13 _
  congr 1
  funext a
  apply Fin.ext
  match a with
  | ⟨0, _⟩ => show win0_3.index t 0 * 256 + 1 * k.val = k.val; rw [(idx_facts t).2.2.2.2.2.2.1]; omega
  | ⟨1, _⟩ => show win0_3.index t 1 * 256 + 1 * j.val = j.val; rw [(idx_facts t).2.2.2.2.2.2.2.1]; omega

theorem blk_w2 (c : Dev nD) (t : Fin cfg0.N) (j : Fin 256) :
    (iblk m c 4 t : Vec Ideal S256x1 .bf16) (ix2 j (0 : Fin 1)) = w2 m c (ix2 j (0 : Fin 1)) := by
  unfold iblk
  rw [View.read_apply]
  show V m c main_v15 _ = V m c main_v15 _
  congr 1
  funext a
  apply Fin.ext
  match a with
  | ⟨0, _⟩ => show win0_4.index t 0 * 256 + 1 * j.val = j.val; rw [(idx_facts t).2.2.2.2.2.2.2.2.1]; omega
  | ⟨1, _⟩ => show win0_4.index t 1 * 1 + 1 * 0 = 0; rw [(idx_facts t).2.2.2.2.2.2.2.2.2.1]

theorem blk_b1 (c : Dev nD) (t : Fin cfg0.N) (j : Fin 256) :
    (iblk m c 5 t : Vec Ideal S1x256 .f32) (ix2 (0 : Fin 1) j) = b1 m c (ix2 (0 : Fin 1) j) := by
  unfold iblk
  rw [View.read_apply]
  show V m c main_v16 _ = V m c main_v16 _
  congr 1
  funext a
  apply Fin.ext
  match a with
  | ⟨0, _⟩ => show win0_5.index t 0 * 1 + 1 * 0 = 0; rw [(idx_facts t).2.2.2.2.2.2.2.2.2.2.1]
  | ⟨1, _⟩ => show win0_5.index t 1 * 256 + 1 * j.val = j.val; rw [(idx_facts t).2.2.2.2.2.2.2.2.2.2.2.1]; omega

theorem blk_b2 (c : Dev nD) (t : Fin cfg0.N) :
    (iblk m c 6 t : Vec Ideal S1x1 .f32) (ix2 (0 : Fin 1) (0 : Fin 1)) = b2 m c (ix2 (0 : Fin 1) (0 : Fin 1)) := by
  unfold iblk
  rw [View.read_apply]
  show V m c main_v17 _ = V m c main_v17 _
  congr 1
  funext a
  apply Fin.ext
  match a with
  | ⟨0, _⟩ => show win0_6.index t 0 * 1 + 1 * 0 = 0; rw [(idx_facts t).2.2.2.2.2.2.2.2.2.2.2.2.1]
  | ⟨1, _⟩ => show win0_6.index t 1 * 1 + 1 * 0 = 0; rw [(idx_facts t).2.2.2.2.2.2.2.2.2.2.2.2.2.1]

/-- Row p of what the body leaves in the result window's buffer at point t is the score of edge 6400 t + p. -/
theorem out_row (c : Dev nD) (t : Fin cfg0.N) (p : Fin 6400) (e : Fin 320000) (he : e.val = 6400 * t.val + p.val) :
    out0_7 (F := Ideal) (iblk m c 0 t) (iblk m c 1 t) (iblk m c 2 t) (iblk m c 3 t) (iblk m c 4 t) (iblk m c 5 t) (iblk m c 6 t) (ix2 p (0 : Fin 1))
      = score m c e := by
  unfold out0_7
  rw [View.canon_unit_zero hz]
  simp only [View.ld_unit_zero (S := S6400x256) hz, View.ld_unit_zero (S := S256x256) hz, View.ld_unit_zero (S := S1x256) hz,
    View.ld_unit_zero (S := S256x1) hz, View.ld_unit_zero (S := S1x1) hz]
  refine (Kern.pay_edge (iblk m c 0 t) (iblk m c 1 t) (iblk m c 2 t) (iblk m c 3 t) (iblk m c 5 t) (iblk m c 4 t) (iblk m c 6 t) p).trans ?_
  unfold score
  simp only [blk_xr m c t p _ e he, blk_xc m c t p _ e he, blk_wa, blk_wb, blk_w2, blk_b1, blk_b2]

end Cert.EdgeMlp.Blocks

end
-- ==== Proof.KernelRun.lean ====
/-
  From the blocks to the array, and the kernel's run. Point t writes back rows 6400 t … 6400 t + 6399 of the
  [320000, 1] result array, and what it writes is the restriction of the one function "entry (e, 0) is edge e's
  score" to those rows; the 50 points' blocks tile the array (row r lies in point r / 6400's block), so the array
  ends holding that function. The program's last operation reshapes the column to a vector of 320000 entries.
-/
import proofs.«400883_j8916352106738_1_alg».proof.Proof.Blocks

noncomputable section

open Idealize.ShloMosaic Idealize.ShloMosaic.TcCoe Idealize.SL.Sem
open Idealize.ShloMosaic.Pipeline (Dat)

namespace Cert.EdgeMlp.Blocks

open Cert.KernelIdeal Cert.KernelIdeal.Gen Idealize.ShloMosaic.ValueIdx Cert.EdgeMlp

variable (m : (ℓ : Loc nD τ sig) → Buf (Elt Ideal) ℓ) (ρ : Dev nD → PrngReg)

/-- What point t writes back is block t of the score column. -/
theorem flushed_eq (c : Dev nD) (t : Fin cfg0.N) :
    (dats m 0 c).flushed 7 t = ((cfg0.win 7).blk t).view.read (Elt Ideal) (scores m c) := by
  show (cfg0.win 7).cut (grid0.coords t) ((dats m 0 c).after 7 t) = _
  rw [after0_7]
  funext j
  have hj0 : (j 0).val < 6400 := (j 0).isLt
  have hj1 : (j 1).val < 1 := (j 1).isLt
  have hN : t.val < 50 := Nat.lt_of_lt_of_eq t.isLt N_0
  have hj : j = ix2 (⟨(j 0).val, hj0⟩ : Fin 6400) (0 : Fin 1) := by
    funext a
    match a with
    | ⟨0, _⟩ => rfl
    | ⟨1, _⟩ => exact Fin.ext (by show (j 1).val = 0; omega)
  show out0_7 (F := Ideal) (iblk m c 0 t) (iblk m c 1 t) (iblk m c 2 t) (iblk m c 3 t) (iblk m c 4 t) (iblk m c 5 t) (iblk m c 6 t) j
      = scores m c (((cfg0.win 7).blk t).view.emb j)
  rw [hj]
  refine (out_row m c t ⟨(j 0).val, hj0⟩ ⟨6400 * t.val + (j 0).val, by omega⟩ rfl).trans ?_
  unfold scores
  congr 1
  apply Fin.ext
  show 6400 * t.val + (j 0).val = win0_7.index t 0 * 6400 + 1 * (j 0).val
  rw [(idx_facts t).2.2.2.2.2.2.2.2.2.2.2.2.2.2.1]
  omega

/-- An index of the result array is in point t's block iff each coordinate is in the block's range on its axis. -/
theorem mem_blk (t : Fin cfg0.N) (i : S320000x1.Idx) :
    i ∈ ((cfg0.win 7).blk t).view.set ↔ ∀ a : Fin 2, win0_7.index t a * S6400x1.size a ≤ (i a).val ∧ (i a).val < win0_7.index t a * S6400x1.size a + S6400x1.size a := by
  show i ∈ ((View.whole main_v18).slice (win0_7.rect t)).set ↔ _
  rw [View.set_slice_whole, Rect.mem_set_unit]
  exact Iff.rfl

/-- Every index of the result array lies in some point's block: row r in point r / 6400's. -/
theorem cover (i : S320000x1.Idx) : ∃ t : Fin cfg0.N, (cfg0.win 7).flush t = true ∧ i ∈ ((cfg0.win 7).blk t).view.set := by
  have hi0 : (i 0).val < 320000 := idx2_lt0 i
  have hi1 : (i 1).val < 1 := idx2_lt1 i
  let t : Fin cfg0.N := ⟨(i 0).val / 6400, by rw [show cfg0.N = 50 from N_0]; omega⟩
  refine ⟨t, flush0_7 t, ?_⟩
  rw [mem_blk]
  obtain ⟨-, -, -, -, -, -, -, -, -, -, -, -, -, -, e0, e1⟩ := idx_facts t
  intro a
  match a with
  | ⟨0, _⟩ =>
    show win0_7.index t 0 * 6400 ≤ (i 0).val ∧ (i 0).val < win0_7.index t 0 * 6400 + 6400
    rw [e0]; show (i 0).val / 6400 * 6400 ≤ (i 0).val ∧ (i 0).val < (i 0).val / 6400 * 6400 + 6400; omega
  | ⟨1, _⟩ =>
    show win0_7.index t 1 * 1 ≤ (i 1).val ∧ (i 1).val < win0_7.index t 1 * 1 + 1
    rw [e1]; omega

/-- The result array after the run: the score column. -/
theorem final (c : Dev nD) : (dats m 0 c).arrAt 7 cfg0.N = scores m c :=
  (dats m 0 c).arrAt_eq_of_cover 7 (scores m c) (fun t _ => flushed_eq m c t) cover

/-- The program's result: the score vector. -/
def result (c : Dev nD) : S320000.Idx → EReal := fun i => score m c ⟨(i 0).val, (i 0).isLt⟩

/-- The reshape after the region turns the score column into the score vector. -/
theorem tail_eq (c : Dev nD) :
    Pipeline.afterTail₀ cfgs (dats m) 0 (V0 m) [hostOps1] c main_v19 = result m c := by
  unfold Pipeline.afterTail₀
  show StableHlo.after hostOps1 _ (Proc.devRef .tc main_v19) = _
  after_results
  have hw : Pipeline.withArrays spec0 c (V0 m c) (fun w => (dats m 0 c).arrAt w cfg0.N) (Proc.devRef .tc (Pipeline.arrRef spec0 7))
      = scores m c :=
    (Pipeline.withArrays_arr spec0 launch0.win.arr_inj c _ _ 7).trans (final m c)
  funext i
  show shapeCast S320000 (Pipeline.withArrays spec0 c (V0 m c) (fun w => (dats m 0 c).arrAt w cfg0.N) (Proc.devRef .tc (Pipeline.arrRef spec0 7)))
      shapeCasts_S320000x1_S320000 i = _
  rw [hw]
  have hi : (i 0).val < 320000 := (i 0).isLt
  refine (shapeCast_apply (scores m c) shapeCasts_S320000x1_S320000 i (ix2 (⟨(i 0).val, hi⟩ : Fin 320000) (0 : Fin 1))
    (by rewrite [Shape.rowMajor_val_two, Shape.rowMajor_val_one]; show (i 0).val * 1 + 0 = (i 0).val; omega)).trans ?_
  rfl

/-- The kernel's run: every weakly fair execution terminates with the result buffer at the score vector and the six
    arguments as launched. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.EdgeMlp.Blocks

end
-- ==== Proof.lean ====
/-
  The claim: on the evident domain (every float input finite, every entry of edge_index a NumPy index into the
  10000 rows of x, that is in [-10000, 10000)) the kernel and the reference compute, for each edge e,

      sigmoid ((relu (x[row e] · A + x[col e] · B + b1) · w2 + b2) / 1),

  A and B the two halves of W1 transposed. The kernel gathers the two rows by jnp.take, which fills NaN where an
  index is out of range; on the domain no index is, and what the region is handed is the reference's own gathered
  rows. The kernel contracts the two rows against A and B separately, the reference the concatenated row against
  W1 transposed: a sum of 512 terms split in two. Everything else is the same operations in the same order, and a
  change of float format is the identity on extended reals. No finiteness is used.

  Frames: the two kernel programs' are the generated frame certificates; the reference's is its generated run with
  the result dropped. The ideal pass rewrote nothing, so the preservation claim is trivial.
-/
import proofs.«400883_j8916352106738_1_alg».proof.Defs
import proofs.«400883_j8916352106738_1_alg».proof.Proof.Gen.Kernel
import proofs.«400883_j8916352106738_1_alg».proof.Proof.Gen.Kernel.Skeleton
import proofs.«400883_j8916352106738_1_alg».proof.Proof.Gen.Kernel.Launch
import proofs.«400883_j8916352106738_1_alg».proof.Proof.Gen.Kernel.Points
import proofs.«400883_j8916352106738_1_alg».proof.Proof.Gen.Kernel.Frame
import proofs.«400883_j8916352106738_1_alg».proof.Proof.Gen.KernelIdeal
import proofs.«400883_j8916352106738_1_alg».proof.Proof.Gen.KernelIdeal.Skeleton
import proofs.«400883_j8916352106738_1_alg».proof.Proof.Gen.KernelIdeal.Launch
import proofs.«400883_j8916352106738_1_alg».proof.Proof.Gen.KernelIdeal.Points
import proofs.«400883_j8916352106738_1_alg».proof.Proof.Gen.KernelIdeal.Frame
import proofs.«400883_j8916352106738_1_alg».proof.Proof.Gen.ReferenceIdeal
import proofs.«400883_j8916352106738_1_alg».proof.Proof.Gen.Pre_finite_inputs
import proofs.«400883_j8916352106738_1_alg».proof.Proof.Gen.ReferenceIdeal.Run
import proofs.«400883_j8916352106738_1_alg».proof.Proof.Gen.ReferenceIdeal.Read
import proofs.«400883_j8916352106738_1_alg».proof.Proof.Spec
import proofs.«400883_j8916352106738_1_alg».proof.Proof.RefValue
import proofs.«400883_j8916352106738_1_alg».proof.Proof.PreRange
import proofs.«400883_j8916352106738_1_alg».proof.Proof.PrefixRows
import proofs.«400883_j8916352106738_1_alg».proof.Proof.PrefixWeights
import proofs.«400883_j8916352106738_1_alg».proof.Proof.Payload
import proofs.«400883_j8916352106738_1_alg».proof.Proof.Blocks
import proofs.«400883_j8916352106738_1_alg».proof.Proof.KernelRun
import Idealize.ShloMosaic.Adequacy
import Idealize.ShloMosaic.Init

noncomputable section

namespace Cert.Proof

open Idealize.ShloMosaic Idealize.ShloMosaic.TcCoe Idealize.ShloMosaic.ValueIdx Idealize.SL.Sem Cert.EdgeMlp

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the score vector of the kernel's launch memory. -/
theorem algebraic : Cert.algebraic_KernelIdeal_ReferenceIdeal := by
  intro m ρ m' ρ' hpre hagree
  refine ⟨fun c => Blocks.result m c, Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1,
    (hagree c).2.2.2.2.1, (hagree c).2.2.2.2.2]
  funext i
  rw [eq_ix1 i]
  refine (Ref.val_v38_edge _ _ _ _ _ _ (i 0)).trans ?_
  show _ = Blocks.score m c (i 0)
  unfold Blocks.score Blocks.xr Blocks.xc Blocks.wa Blocks.wb Blocks.w2 Blocks.b1 Blocks.b2
  rw [← Rows.V_v5 m hpre c, ← Rows.V_v7 m hpre c]
  refine congr (congr (congr (congr (congr (congr (congrArg edgeScore ?_) ?_) ?_) ?_) ?_) ?_) ?_
  · rfl
  · rfl
  · exact funext fun k => funext fun j => (Weights.V_v10 m c k j).symm
  · exact funext fun k => funext fun j => (Weights.V_v13 m c k j).symm
  · exact funext fun j => (Weights.V_v16 m c j).symm
  · exact funext fun j => (Weights.V_v15 m c j).symm
  · exact (Weights.V_v17 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
